-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2 : Shape := ⟨2, ![10000, 2]⟩
abbrev S10000x10000 : Shape := ⟨2, ![10000, 10000]⟩
abbrev S2x5 : Shape := ⟨2, ![2, 5]⟩
abbrev S5 : Shape := ⟨1, ![5]⟩
abbrev S5x2 : Shape := ⟨2, ![5, 2]⟩
abbrev S2 : Shape := ⟨1, ![2]⟩
abbrev S_ : Shape := ⟨0, ![]⟩

class Facts : Prop where
  bcast_S_S10000x2 : S_.BroadcastsInDim S10000x2 (![] : Fin 0 → Fin S10000x2.rank)
  reducesTo_S10000x2_S_d0_1 : S10000x2.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S2x5 : S_.BroadcastsInDim S2x5 (![] : Fin 0 → Fin S2x5.rank)
  reducesTo_S2x5_S_d0_1 : S2x5.ReducesTo [0, 1] S_
  bcast_S_S5 : S_.BroadcastsInDim S5 (![] : Fin 0 → Fin S5.rank)
  reducesTo_S5_S_d0 : S5.ReducesTo [0] S_
  bcast_S_S5x2 : S_.BroadcastsInDim S5x2 (![] : Fin 0 → Fin S5x2.rank)
  reducesTo_S5x2_S_d0_1 : S5x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S5x2 .f32) (main_arg5 : FVec F S2 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x2 .f32 := Host.absf main_arg4
  let main_cst_6 : FVec F S_ .f32 := constant S_ .f32 0x7F800000#32
  let main_v20 : FVec F S5x2 .f32 := broadcastInDim S5x2 ![] bcast_S_S5x2 main_cst_6
  let main_v21 : IVec S5x2 1 := cmpf .olt main_v19 main_v20
  let main_c_7 : IVec S_ 1 := constantI S_ 1 1#1
  let main_v22 : IVec S_ 1 := (fun x v => Host.reduce IntOp.andi x v reducesTo_S5x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S10000x2 .f32) (main_arg1 : FVec F S10000x10000 .f32) (main_arg2 : FVec F S2x5 .f32) (main_arg3 : FVec F S5 .f32) (main_arg4 : FVec F S5x2 .f32) (main_arg5 : FVec F S2 .f32) : IVec S_ 1 :=
  let main_v0 : FVec F S10000x2 .f32 := Host.absf main_arg0
  let main_cst : FVec F S_ .f32 := constant S_ .f32 0x7F800000#32
  let main_v1 : FVec F S10000x2 .f32 := broadcastInDim S10000x2 ![] bcast_S_S10000x2 main_cst
  let main_v2 : IVec S10000x2 1 := cmpf .olt main_v0 main_v1
  let main_c : IVec S_ 1 := constantI S_ 1 1#1
  let main_v3 : IVec S_ 1 := (fun x v => Host.reduce IntOp.andi x v reducesTo_S10000x2_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S2x5 .f32 := Host.absf main_arg2
  let main_cst_2 : FVec F S_ .f32 := constant S_ .f32 0x7F800000#32
  let main_v10 : FVec F S2x5 .f32 := broadcastInDim S2x5 ![] bcast_S_S2x5 main_cst_2
  let main_v11 : IVec S2x5 1 := cmpf .olt main_v9 main_v10
  let main_c_3 : IVec S_ 1 := constantI S_ 1 1#1
  let main_v12 : IVec S_ 1 := (fun x v => Host.reduce IntOp.andi x v reducesTo_S2x5_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg4 main_arg5 main_v13 main_v16
-- ==== Kernel.lean ====
abbrev S10000x2 : Shape := ⟨2, ![10000, 2]⟩
abbrev S10000x10000 : Shape := ⟨2, ![10000, 10000]⟩
abbrev S2x5 : Shape := ⟨2, ![2, 5]⟩
abbrev S5 : Shape := ⟨1, ![5]⟩
abbrev S5x2 : Shape := ⟨2, ![5, 2]⟩
abbrev S2 : Shape := ⟨1, ![2]⟩
abbrev S1x5 : Shape := ⟨2, ![1, 5]⟩
abbrev S10000x5 : Shape := ⟨2, ![10000, 5]⟩
abbrev S200x10000 : Shape := ⟨2, ![200, 10000]⟩
abbrev S200x5 : Shape := ⟨2, ![200, 5]⟩
abbrev S200x2 : Shape := ⟨2, ![200, 2]⟩
abbrev S1x2 : Shape := ⟨2, ![1, 2]⟩

abbrev nBuf : Space → Nat
  | .hbm => 10
  | .vmem => 14
  | .smem => 0
  | _ => 0

abbrev bufTy : (tb : Table) → Fin (tcTables nBuf tb) → BufTy
  | .hbm, ⟨0, _⟩ => ⟨S10000x2, .f32⟩
  | .hbm, ⟨1, _⟩ => ⟨S10000x10000, .f32⟩
  | .hbm, ⟨2, _⟩ => ⟨S2x5, .f32⟩
  | .hbm, ⟨3, _⟩ => ⟨S5, .f32⟩
  | .hbm, ⟨4, _⟩ => ⟨S5x2, .f32⟩
  | .hbm, ⟨5, _⟩ => ⟨S2, .f32⟩
  | .hbm, ⟨6, _⟩ => ⟨S1x5, .f32⟩
  | .hbm, ⟨7, _⟩ => ⟨S10000x5, .f32⟩
  | .hbm, ⟨8, _⟩ => ⟨S1x2, .f32⟩
  | .hbm, ⟨9, _⟩ => ⟨S10000x2, .f32⟩
  | .local _ .vmem, ⟨0, _⟩ => ⟨S200x10000, .f32⟩
  | .local _ .vmem, ⟨1, _⟩ => ⟨S200x10000, .f32⟩
  | .local _ .vmem, ⟨2, _⟩ => ⟨S10000x2, .f32⟩
  | .local _ .vmem, ⟨3, _⟩ => ⟨S2x5, .f32⟩
  | .local _ .vmem, ⟨4, _⟩ => ⟨S1x5, .f32⟩
  | .local _ .vmem, ⟨5, _⟩ => ⟨S200x5, .f32⟩
  | .local _ .vmem, ⟨6, _⟩ => ⟨S200x5, .f32⟩
  | .local _ .vmem, ⟨7, _⟩ => ⟨S200x10000, .f32⟩
  | .local _ .vmem, ⟨8, _⟩ => ⟨S200x10000, .f32⟩
  | .local _ .vmem, ⟨9, _⟩ => ⟨S10000x5, .f32⟩
  | .local _ .vmem, ⟨10, _⟩ => ⟨S5x2, .f32⟩
  | .local _ .vmem, ⟨11, _⟩ => ⟨S1x2, .f32⟩
  | .local _ .vmem, ⟨12, _⟩ => ⟨S200x2, .f32⟩
  | .local _ .vmem, ⟨13, _⟩ => ⟨S200x2, .f32⟩
  | _, _ => ⟨S10000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x5 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S5_S1x5 : S5.ShapeCasts S1x5
  inb_S200x10000_S200x10000_0_0 : ∀ a, (![0, 0] : Fin 2 → Nat) a + S200x10000.size a ≤ S200x10000.size a
  h_S200x10000 : 0 < S200x10000.numel
  inb_S10000x2_S10000x2_0_0 : ∀ a, (![0, 0] : Fin 2 → Nat) a + S10000x2.size a ≤ S10000x2.size a
  h_S10000x2 : 0 < S10000x2.numel
  inb_S2x5_S2x5_0_0 : ∀ a, (![0, 0] : Fin 2 → Nat) a + S2x5.size a ≤ S2x5.size a
  h_S2x5 : 0 < S2x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S200x5 : S1x5.Broadcasts S200x5
  inb_S200x5_S200x5_0_0 : ∀ a, (![0, 0] : Fin 2 → Nat) a + S200x5.size a ≤ S200x5.size a
  h_S200x5 : 0 < S200x5.numel
  shapeCasts_S2_S1x2 : S2.ShapeCasts S1x2
  inb_S10000x5_S10000x5_0_0 : ∀ a, (![0, 0] : Fin 2 → Nat) a + S10000x5.size a ≤ S10000x5.size a
  h_S10000x5 : 0 < S10000x5.numel
  shapeCasts_S10000x5_S10000x5 : S10000x5.ShapeCasts S10000x5
  inb_S5x2_S5x2_0_0 : ∀ a, (![0, 0] : Fin 2 → Nat) a + S5x2.size a ≤ S5x2.size a
  h_S5x2 : 0 < S5x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S200x2 : S1x2.Broadcasts S200x2
  inb_S200x2_S200x2_0_0 : ∀ a, (![0, 0] : Fin 2 → Nat) a + S200x2.size a ≤ S200x2.size a
  h_S200x2 : 0 < S200x2.numel
  dot_S200x10000_S10000x2_S200x2_1_0_0_1_n_n_wf : DotDims.WF S200x10000 S10000x2 S200x2 [1] [0] [0] [1] [] []
  dot_S200x2_S2x5_S200x5_1_0_0_1_n_n_wf : DotDims.WF S200x2 S2x5 S200x5 [1] [0] [0] [1] [] []
  dot_S200x10000_S10000x5_S200x5_1_0_0_1_n_n_wf : DotDims.WF S200x10000 S10000x5 S200x5 [1] [0] [0] [1] [] []
  dot_S200x5_S5x2_S200x2_1_0_0_1_n_n_wf : DotDims.WF S200x5 S5x2 S200x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x2.size a ≤ S10000x2.size a
  hwx0_1 : ∀ i : grid0.Coords, EltTy.bits .f32 = 32 ∨ (Rect.block (s := S10000x2) S10000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x5.size a ≤ S2x5.size a
  hwx0_2 : ∀ i : grid0.Coords, EltTy.bits .f32 = 32 ∨ (Rect.block (s := S2x5) S2x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5.size a ≤ S1x5.size a
  hwx0_3 : ∀ i : grid0.Coords, EltTy.bits .f32 = 32 ∨ (Rect.block (s := S1x5) S1x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x5.size a ≤ S10000x5.size a
  hwx0_4 : ∀ i : grid0.Coords, EltTy.bits .f32 = 32 ∨ (Rect.block (s := S10000x5) S200x5.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x5.size a ≤ S10000x5.size a
  hwx1_1 : ∀ i : grid1.Coords, EltTy.bits .f32 = 32 ∨ (Rect.block (s := S10000x5) S10000x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x2.size a ≤ S5x2.size a
  hwx1_2 : ∀ i : grid1.Coords, EltTy.bits .f32 = 32 ∨ (Rect.block (s := S5x2) S5x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x2.size a ≤ S10000x2.size a
  hwx1_4 : ∀ i : grid1.Coords, EltTy.bits .f32 = 32 ∨ (Rect.block (s := S10000x2) S200x2.size (cc1_transform_4 i) (hinb1_4 i)).WholeWords (EltTy.packing .f32)

variable [Facts₀]

def dot_S200x10000_S10000x2_S200x2_1_0_0_1_n_n : DotDims S200x10000 S10000x2 S200x2 where
  lhsContracting := [1]
  rhsContracting := [0]
  lhsNonContracting := [0]
  rhsNonContracting := [1]
  lhsBatch := []
  rhsBatch := []
  wf := dot_S200x10000_S10000x2_S200x2_1_0_0_1_n_n_wf
def dot_S200x2_S2x5_S200x5_1_0_0_1_n_n : DotDims S200x2 S2x5 S200x5 where
  lhsContracting := [1]
  rhsContracting := [0]
  lhsNonContracting := [0]
  rhsNonContracting := [1]
  lhsBatch := []
  rhsBatch := []
  wf := dot_S200x2_S2x5_S200x5_1_0_0_1_n_n_wf
def dot_S200x10000_S10000x5_S200x5_1_0_0_1_n_n : DotDims S200x10000 S10000x5 S200x5 where
  lhsContracting := [1]
  rhsContracting := [0]
  lhsNonContracting := [0]
  rhsNonContracting := [1]
  lhsBatch := []
  rhsBatch := []
  wf := dot_S200x10000_S10000x5_S200x5_1_0_0_1_n_n_wf
def dot_S200x5_S5x2_S200x2_1_0_0_1_n_n : DotDims S200x5 S5x2 S200x2 where
  lhsContracting := [1]
  rhsContracting := [0]
  lhsNonContracting := [0]
  rhsNonContracting := [1]
  lhsBatch := []
  rhsBatch := []
  wf := dot_S200x5_S5x2_S200x2_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S200x5.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x5.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S5x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x2 : Shape := ⟨2, ![10000, 2]⟩
abbrev S10000x10000 : Shape := ⟨2, ![10000, 10000]⟩
abbrev S2x5 : Shape := ⟨2, ![2, 5]⟩
abbrev S5 : Shape := ⟨1, ![5]⟩
abbrev S5x2 : Shape := ⟨2, ![5, 2]⟩
abbrev S2 : Shape := ⟨1, ![2]⟩
abbrev S10000x5 : Shape := ⟨2, ![10000, 5]⟩
abbrev S1x5 : Shape := ⟨2, ![1, 5]⟩
abbrev S_ : Shape := ⟨0, ![]⟩
abbrev S1x2 : Shape := ⟨2, ![1, 2]⟩

abbrev nBuf : Space → Nat
  | .hbm => 27
  | .vmem => 0
  | .smem => 0
  | _ => 0

abbrev bufTy : (tb : Table) → Fin (tcTables nBuf tb) → BufTy
  | .hbm, ⟨0, _⟩ => ⟨S10000x2, .f32⟩
  | .hbm, ⟨1, _⟩ => ⟨S10000x10000, .f32⟩
  | .hbm, ⟨2, _⟩ => ⟨S2x5, .f32⟩
  | .hbm, ⟨3, _⟩ => ⟨S5, .f32⟩
  | .hbm, ⟨4, _⟩ => ⟨S5x2, .f32⟩
  | .hbm, ⟨5, _⟩ => ⟨S2, .f32⟩
  | .hbm, ⟨6, _⟩ => ⟨S10000x5, .f32⟩
  | .hbm, ⟨7, _⟩ => ⟨S10000x5, .f32⟩
  | .hbm, ⟨8, _⟩ => ⟨S1x5, .f32⟩
  | .hbm, ⟨9, _⟩ => ⟨S10000x5, .f32⟩
  | .hbm, ⟨10, _⟩ => ⟨S10000x5, .f32⟩
  | .hbm, ⟨11, _⟩ => ⟨S_, .f32⟩
  | .hbm, ⟨12, _⟩ => ⟨S10000x5, .f32⟩
  | .hbm, ⟨13, _⟩ => ⟨S10000x5, .f32⟩
  | .hbm, ⟨14, _⟩ => ⟨S10000x2, .f32⟩
  | .hbm, ⟨15, _⟩ => ⟨S10000x2, .f32⟩
  | .hbm, ⟨16, _⟩ => ⟨S1x2, .f32⟩
  | .hbm, ⟨17, _⟩ => ⟨S10000x2, .f32⟩
  | .hbm, ⟨18, _⟩ => ⟨S10000x2, .f32⟩
  | .hbm, ⟨19, _⟩ => ⟨S10000x2, .f32⟩
  | .hbm, ⟨20, _⟩ => ⟨S10000x2, .f32⟩
  | .hbm, ⟨21, _⟩ => ⟨S_, .f32⟩
  | .hbm, ⟨22, _⟩ => ⟨S10000x2, .f32⟩
  | .hbm, ⟨23, _⟩ => ⟨S10000x2, .f32⟩
  | .hbm, ⟨24, _⟩ => ⟨S_, .f32⟩
  | .hbm, ⟨25, _⟩ => ⟨S10000x2, .f32⟩
  | .hbm, ⟨26, _⟩ => ⟨S10000x2, .f32⟩
  | _, _ => ⟨S10000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S5_S1x5_1 : S5.BroadcastsInDim S1x5 (![1] : Fin 1 → Fin S1x5.rank)
  bcast_S1x5_S10000x5_0_1 : S1x5.BroadcastsInDim S10000x5 (![0, 1] : Fin 2 → Fin S10000x5.rank)
  bcast_S_S10000x5 : S_.BroadcastsInDim S10000x5 (![] : Fin 0 → Fin S10000x5.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  bcast_S_S10000x2 : S_.BroadcastsInDim S10000x2 (![] : Fin 0 → Fin S10000x2.rank)
  dot_S10000x2_S2x5_S10000x5_1_0_0_1_n_n_wf : DotDims.WF S10000x2 S2x5 S10000x5 [1] [0] [0] [1] [] []
  dot_S10000x10000_S10000x5_S10000x5_1_0_0_1_n_n_wf : DotDims.WF S10000x10000 S10000x5 S10000x5 [1] [0] [0] [1] [] []
  dot_S10000x5_S5x2_S10000x2_1_0_0_1_n_n_wf : DotDims.WF S10000x5 S5x2 S10000x2 [1] [0] [0] [1] [] []
  dot_S10000x10000_S10000x2_S10000x2_1_0_0_1_n_n_wf : DotDims.WF S10000x10000 S10000x2 S10000x2 [1] [0] [0] [1] [] []

variable [Facts₀]

def dot_S10000x2_S2x5_S10000x5_1_0_0_1_n_n : DotDims S10000x2 S2x5 S10000x5 where
  lhsContracting := [1]
  rhsContracting := [0]
  lhsNonContracting := [0]
  rhsNonContracting := [1]
  lhsBatch := []
  rhsBatch := []
  wf := dot_S10000x2_S2x5_S10000x5_1_0_0_1_n_n_wf
def dot_S10000x10000_S10000x5_S10000x5_1_0_0_1_n_n : DotDims S10000x10000 S10000x5 S10000x5 where
  lhsContracting := [1]
  rhsContracting := [0]
  lhsNonContracting := [0]
  rhsNonContracting := [1]
  lhsBatch := []
  rhsBatch := []
  wf := dot_S10000x10000_S10000x5_S10000x5_1_0_0_1_n_n_wf
def dot_S10000x5_S5x2_S10000x2_1_0_0_1_n_n : DotDims S10000x5 S5x2 S10000x2 where
  lhsContracting := [1]
  rhsContracting := [0]
  lhsNonContracting := [0]
  rhsNonContracting := [1]
  lhsBatch := []
  rhsBatch := []
  wf := dot_S10000x5_S5x2_S10000x2_1_0_0_1_n_n_wf
def dot_S10000x10000_S10000x2_S10000x2_1_0_0_1_n_n : DotDims S10000x10000 S10000x2 S10000x2 where
  lhsContracting := [1]
  rhsContracting := [0]
  lhsNonContracting := [0]
  rhsNonContracting := [1]
  lhsBatch := []
  rhsBatch := []
  wf := dot_S10000x10000_S10000x2_S10000x2_1_0_0_1_n_n_wf

class Facts : Prop extends Facts₀ where

variable [Facts]
-- ==== Proof.GcnSpec.lean ====
/-
  Two stacked graph-convolution layers over a dense adjacency, as plain sums over the extended reals.

  One layer sends node features `X` (one row per node) to `A · X · W + b`: every node gathers its neighbours' features
  through the adjacency `A` and the result is mixed by the small weight matrix `W`. The triple product can be grouped
  two ways: `(A · X) · W` gathers first and mixes after; `A · (X · W)` mixes first. Entry `(i, l)` is
      ∑ k, (∑ j, A i j · X j k) · W k l        resp.        ∑ j, A i j · (∑ k, X j k · W k l),
  and the two agree whenever every entry of `A`, `X` and `W` is a real number: both are the double sum of
  `A i j · X j k · W k l` (distributivity and exchange of finite sums, which hold in ℝ; on the extended reals
  distributivity fails at the infinities, so the hypothesis is used). A rectifier `max · 0` keeps real entries real, so
  the second layer meets real features again; the closing logistic function is applied to equal arguments.
-/
import Idealize.ShloMosaic.Lib.ValueIdx
import Idealize.ShloMosaic.PureOps.Ideal.Laws

noncomputable section

namespace Cert.Gcn

open Idealize.ShloMosaic Idealize.ShloMosaic.ValueIdx

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, EReal.coe_zero.symm⟩

theorem IsReal.max_zero {x : EReal} (hx : IsReal x) : IsReal (max x 0) := by
  rcases le_total x 0 with h | h
  · rw [max_eq_right h]; exact IsReal.zero
  · rw [max_eq_left h]; exact hx

theorem IsReal.sum {ι : Type} (s : Finset ι) (f : ι → EReal) (h : ∀ i, IsReal (f i)) : IsReal (∑ i ∈ s, f i) := by
  classical
  induction s using Finset.induction_on with
  | empty => rw [Finset.sum_empty]; exact IsReal.zero
  | insert a s ha ih => rw [Finset.sum_insert ha]; exact (h a).add ih

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- REGROUPING: for real entries, gathering before mixing is mixing before gathering. -/
theorem regroup {J K : Type} [Fintype J] [Fintype K] (a : J → EReal) (x : J → K → EReal) (w : K → EReal)
    (ha : ∀ j, IsReal (a j)) (hx : ∀ j k, IsReal (x j k)) (hw : ∀ k, IsReal (w k)) :
    ∑ k, (∑ j, a j * x j k) * w k = ∑ j, a j * ∑ k, x j k * w k := by
  choose a' ha' using ha
  choose x' hx' using hx
  choose w' hw' using hw
  have e1 : ∀ k, (∑ j, a j * x j k) * w k = (((∑ j, a' j * x' j k) * w' k : ℝ) : EReal) := fun k => by
    rw [EReal.coe_mul, coe_sum, hw']
    exact congrArg (· * (w' k : EReal)) (Finset.sum_congr rfl fun j _ => by rw [ha', hx', EReal.coe_mul])
  have e2 : ∀ j, a j * ∑ k, x j k * w k = ((a' j * ∑ k, x' j k * w' k : ℝ) : EReal) := fun j => by
    rw [EReal.coe_mul, coe_sum, ha']
    exact congrArg ((a' j : EReal) * ·) (Finset.sum_congr rfl fun k _ => by rw [hx', hw', EReal.coe_mul])
  rw [Finset.sum_congr rfl fun k _ => e1 k, Finset.sum_congr rfl fun j _ => e2 j, ← coe_sum, ← coe_sum]
  refine congrArg _ ?_
  simp only [Finset.sum_mul, Finset.mul_sum]
  rw [Finset.sum_comm]
  exact Finset.sum_congr rfl fun j _ => Finset.sum_congr rfl fun k _ => mul_assoc _ _ _

variable {N D E E' : ℕ}

/-- A matrix of extended reals with `R` rows and `C` columns, indexed as the arrays of that shape are. -/
abbrev Mat (R C : ℕ) : Type := (⟨2, ![R, C]⟩ : Shape).Idx → EReal
/-- A vector of extended reals of length `C`. -/
abbrev Vect (C : ℕ) : Type := (⟨1, ![C]⟩ : Shape).Idx → EReal

/-- One layer before its activation, gathering first: `((A · X) · W) i l + B 0 l`, the bias kept as a one-row matrix. -/
def gatherMix (A : Mat N N) (X : Mat N D) (W : Mat D E) (B : Mat 1 E) (i : Fin N) (l : Fin E) : EReal :=
  (∑ k : Fin D, (∑ j : Fin N, A (ix2 i j) * X (ix2 j k)) * W (ix2 k l)) + B (ix2 (0 : Fin 1) l)

/-- One layer before its activation, mixing first: `(A · (X · W)) i l + b l`, the bias a vector. -/
def mixGather (A : Mat N N) (X : Mat N D) (W : Mat D E) (b : Vect E) (i : Fin N) (l : Fin E) : EReal :=
  (∑ j : Fin N, A (ix2 i j) * ∑ k : Fin D, X (ix2 j k) * W (ix2 k l)) + b (ix1 l)

theorem gatherMix_eq_mixGather (A : Mat N N) (X : Mat N D) (W : Mat D E) (B : Mat 1 E) (b : Vect E)
    (hA : ∀ i, IsReal (A i)) (hX : ∀ i, IsReal (X i)) (hW : ∀ i, IsReal (W i))
    (hB : ∀ l : Fin E, B (ix2 (0 : Fin 1) l) = b (ix1 l)) (i : Fin N) (l : Fin E) :
    gatherMix A X W B i l = mixGather A X W b i l := by
  unfold gatherMix mixGather
  rw [hB, regroup (fun j => A (ix2 i j)) (fun j k => X (ix2 j k)) (fun k => W (ix2 k l))
    (fun _ => hA _) (fun _ _ => hX _) (fun _ => hW _)]

theorem mixGather_isReal (A : Mat N N) (X : Mat N D) (W : Mat D E) (b : Vect E)
    (hA : ∀ i, IsReal (A i)) (hX : ∀ i, IsReal (X i)) (hW : ∀ i, IsReal (W i)) (hb : ∀ i, IsReal (b i))
    (i : Fin N) (l : Fin E) : IsReal (mixGather A X W b i l) :=
  (IsReal.sum _ _ fun j => (hA _).mul (IsReal.sum _ _ fun k => (hX _).mul (hW _))).add (hb _)

/-- The hidden features, gathering first: the rectified first layer. -/
def hiddenK (A : Mat N N) (X : Mat N D) (W : Mat D E) (B : Mat 1 E) : Mat N E :=
  fun i => max (gatherMix A X W B (i 0) (i 1)) 0

/-- The hidden features, mixing first. -/
def hiddenR (A : Mat N N) (X : Mat N D) (W : Mat D E) (b : Vect E) : Mat N E :=
  fun i => max (mixGather A X W b (i 0) (i 1)) 0

/-- The network's output, gathering first in both layers. -/
def outputK (A : Mat N N) (X : Mat N D) (W1 : Mat D E) (B1 : Mat 1 E) (W4 : Mat E E') (B4 : Mat 1 E') : Mat N E' :=
  fun i => Ideal.logistic (gatherMix A (hiddenK A X W1 B1) W4 B4 (i 0) (i 1))

/-- The network's output, mixing first in both layers. -/
def outputR (A : Mat N N) (X : Mat N D) (W1 : Mat D E) (b1 : Vect E) (W4 : Mat E E') (b4 : Vect E') : Mat N E' :=
  fun i => Ideal.logistic (mixGather A (hiddenR A X W1 b1) W4 b4 (i 0) (i 1))

theorem hiddenK_eq_hiddenR (A : Mat N N) (X : Mat N D) (W : Mat D E) (B : Mat 1 E) (b : Vect E)
    (hA : ∀ i, IsReal (A i)) (hX : ∀ i, IsReal (X i)) (hW : ∀ i, IsReal (W i))
    (hB : ∀ l : Fin E, B (ix2 (0 : Fin 1) l) = b (ix1 l)) : hiddenK A X W B = hiddenR A X W b :=
  funext fun i => congrArg (max · 0) (gatherMix_eq_mixGather A X W B b hA hX hW hB (i 0) (i 1))

/-- THE TWO GROUPINGS AGREE on inputs whose adjacency, features, weights and first bias are real. -/
theorem outputK_eq_outputR (A : Mat N N) (X : Mat N D) (W1 : Mat D E) (B1 : Mat 1 E) (b1 : Vect E)
    (W4 : Mat E E') (B4 : Mat 1 E') (b4 : Vect E')
    (hA : ∀ i, IsReal (A i)) (hX : ∀ i, IsReal (X i)) (hW1 : ∀ i, IsReal (W1 i)) (hb1 : ∀ i, IsReal (b1 i))
    (hW4 : ∀ i, IsReal (W4 i))
    (hB1 : ∀ l : Fin E, B1 (ix2 (0 : Fin 1) l) = b1 (ix1 l)) (hB4 : ∀ l : Fin E', B4 (ix2 (0 : Fin 1) l) = b4 (ix1 l)) :
    outputK A X W1 B1 W4 B4 = outputR A X W1 b1 W4 b4 := by
  funext i
  unfold outputK outputR
  rw [hiddenK_eq_hiddenR A X W1 B1 b1 hA hX hW1 hB1]
  exact congrArg Ideal.logistic (gatherMix_eq_mixGather A (hiddenR A X W1 b1) W4 B4 b4 hA
    (fun j => (mixGather_isReal A X W1 b1 hA hX hW1 hb1 (j 0) (j 1)).max_zero) hW4 hB4 (i 0) (i 1))

end Cert.Gcn

end
-- ==== Proof.Finite.lean ====
/-
  The admission test on the six input arrays, read back as a statement about numbers.

  For each array the test asks, entry by entry, whether |x| is strictly below plus infinity, takes the conjunction of
  the answers over the whole array, and then the conjunction of the six array verdicts. Over the extended reals
  |x| = max x (-x) equals plus infinity at both infinities and is a real number otherwise, so an entry passes exactly
  when it is a real number. Hence: if the whole test answers true, every entry of every array is a real number. The
  argument has three layers: a conjunction that is true has only true members (used for the six verdicts and, inside
  each, for the conjunction over all indices), and the one-entry fact above.
-/
import proofs.«154681_g6055903887559_cont_9to1_m_18_2_alg».proof.Defs
import proofs.«154681_g6055903887559_cont_9to1_m_18_2_alg».proof.Proof.Gen.Pre_finite_inputs
import proofs.«154681_g6055903887559_cont_9to1_m_18_2_alg».proof.Proof.GcnSpec
import Idealize.ShloMosaic.Lib.ReduceAll

noncomputable section

namespace Cert.Finite

open Cert.Pre_finite_inputs Cert.Gcn Idealize.ShloMosaic Idealize.ShloMosaic.ValueIdx

/-- The single-precision word with every exponent bit set and no fraction bit denotes plus infinity. -/
theorem inf_word : Ideal.ofBits .f32 0x7F800000#32 = (⊤ : EReal) := by
  simp [Ideal.ofBits, Ideal.ieee]

/-- An extended real whose absolute value, the larger of x and -x, stays strictly below plus infinity is a real number:
    each of the two infinities has absolute value plus infinity, which is not below itself. -/
theorem isReal_of_abs_lt_top (x : EReal) (h : max x (-x) < ⊤) : IsReal x := by
  induction x using EReal.rec with
  | bot => simp at h
  | top => simp at h
  | coe r => exact ⟨r, rfl⟩

/-- The shape of rank zero has exactly one index. -/
instance subsingleton_scalar_idx : Subsingleton S_.Idx := ⟨fun a b => funext fun d => d.elim0⟩

/-- THE ELEMENT TEST READ BACK, for an array of any shape: where the comparison of |x| against the broadcast word of
    plus infinity answers true at an index, the entry there is a real number. -/
theorem real_of_test {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  have h' : BitVec.ofBool (decide (max (x i) (-(x i)) < Ideal.ofBits .f32 0x7F800000#32)) = 1#1 := h
  rw [inf_word] at h'
  refine isReal_of_abs_lt_top (x i) ?_
  by_contra hn
  rw [decide_eq_false hn] at h'
  exact absurd h' (by decide)

/-- ALL INPUTS ARE REAL: when the admission test answers true, every entry of each of the six arrays (node features,
    adjacency, and the two layers' weights and biases) is a real number. -/
theorem inputs_real (x0 : FVec Ideal S10000x2 .f32) (x1 : FVec Ideal S10000x10000 .f32) (x2 : FVec Ideal S2x5 .f32)
    (x3 : FVec Ideal S5 .f32) (x4 : FVec Ideal S5x2 .f32) (x5 : FVec Ideal S2 .f32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) := by
  -- the test's single answer, as the conjunction of the six array verdicts
  have h0 := congrFun h ValueIdx.ix0
  dsimp only [Cert.Pre_finite_inputs.fn, Cert.Pre_finite_inputs.fn_part1] at h0
  -- a true conjunction has true members: peel the verdicts off from the last array to the first
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- each verdict is a conjunction over all indices, so every entry passed its own test, and is therefore real
  exact ⟨fun i => real_of_test x0 _ i (Host.reduce_andi_all _ _ _ _ _ e0 i),
    fun i => real_of_test x1 _ i (Host.reduce_andi_all _ _ _ _ _ e1 i),
    fun i => real_of_test x2 _ i (Host.reduce_andi_all _ _ _ _ _ e2 i),
    fun i => real_of_test x3 _ i (Host.reduce_andi_all _ _ _ _ _ e3 i),
    fun i => real_of_test x4 _ i (Host.reduce_andi_all _ _ _ _ _ e4 i),
    fun i => real_of_test x5 _ i (Host.reduce_andi_all _ _ _ _ _ e5 i)⟩

end Cert.Finite

end
-- ==== Proof.RefValue.lean ====
import proofs.«154681_g6055903887559_cont_9to1_m_18_2_alg».proof.Defs
import proofs.«154681_g6055903887559_cont_9to1_m_18_2_alg».proof.Proof.Gen.ReferenceIdeal.Run
import proofs.«154681_g6055903887559_cont_9to1_m_18_2_alg».proof.Proof.Gen.ReferenceIdeal.Read
import proofs.«154681_g6055903887559_cont_9to1_m_18_2_alg».proof.Proof.GcnSpec

noncomputable section

namespace Cert.ReferenceIdeal.RefValue

open Cert.ReferenceIdeal Cert.ReferenceIdeal.Gen Cert.ReferenceIdeal.Read Cert.Gcn Idealize.ShloMosaic Idealize.ShloMosaic.ValueIdx

/-
  The reference network, read entry by entry, is the mix-first double layer of sums.

  The reference forms, for node features X (10000 × 2), adjacency A (10000 × 10000), weights W1 (2 × 5), W4 (5 × 2) and
  biases b1, b4:
      H = max (A · (X · W1) + b1) 0,        O = 1 / (1 + exp (-(A · (H · W4) + b4))),
  every product a whole matrix product. Entry (p, q) of a product L · R is the sum over k of L (p, k) · R (k, q); a bias
  vector spread over the rows contributes its entry q to every row p; the constant matrices hold the numbers 0 and 1.
  Hence entry (p, q) of H is
      max ((∑ j, A (p, j) · ∑ k, X (j, k) · W1 (k, q)) + b1 q) 0,
  the rectified mix-first layer, and entry (p, q) of O is the logistic function of
      (∑ j, A (p, j) · ∑ k, H (j, k) · W4 (k, q)) + b4 q,
  since 1 / (1 + exp (-z)) is the logistic function of z by definition. The hidden layer is identified first, as a whole
  matrix, so that the output layer meets it as one opaque matrix H and never looks inside its sums again.
-/

/-- The single-precision word 0x3F800000 denotes the number one: exponent field 127, fraction field zero. -/
theorem one_word : Ideal.ofBits .f32 0x3F800000#32 = 1 := by
  simp [Ideal.ofBits, Ideal.ieee, -EReal.coe_mul]; norm_num

/-! ### First layer: where each operand is read

  For the entry (p, q) of A · (X · W1): the outer product reads A at (p, k) and X · W1 at (k, q); the inner product reads
  X at (p, k) and W1 at (k, q); the bias, spread first to one row and then to all rows, is read at q. -/

theorem lidx1 (p : Fin 10000) (q : Fin 5) (k : Fin 10000) : lidx_main_v1 (ix2 p q) k = ix2 p k :=
  funext fun a => Fin.ext (by match a with | ⟨0, _⟩ => rfl | ⟨1, _⟩ => rfl)
theorem ridx1 (p : Fin 10000) (q : Fin 5) (k : Fin 10000) : ridx_main_v1 (ix2 p q) k = ix2 k q :=
  funext fun a => Fin.ext (by match a with | ⟨0, _⟩ => rfl | ⟨1, _⟩ => rfl)
theorem lidx0 (p : Fin 10000) (q : Fin 5) (k : Fin 2) : lidx_main_v0 (ix2 p q) k = ix2 p k :=
  funext fun a => Fin.ext (by match a with | ⟨0, _⟩ => rfl | ⟨1, _⟩ => rfl)
theorem ridx0 (p : Fin 10000) (q : Fin 5) (k : Fin 2) : ridx_main_v0 (ix2 p q) k = ix2 k q :=
  funext fun a => Fin.ext (by match a with | ⟨0, _⟩ => rfl | ⟨1, _⟩ => rfl)
theorem bidx1 (p : Fin 10000) (q : Fin 5) : idx_main_v2 (idx_main_v3 (ix2 p q)) = ix1 q :=
  funext fun a => Fin.ext (by match a with | ⟨0, _⟩ => rfl)

/-- THE HIDDEN LAYER: the reference's rectified first layer is the mix-first hidden matrix. Entry (p, q) is the maximum
    of `(∑ j, A (p, j) · ∑ k, X (j, k) · W1 (k, q)) + b1 q` and the constant zero. -/
theorem hidden_eq (x0 : FVec Ideal S10000x2 .f32) (x1 : FVec Ideal S10000x10000 .f32) (x2 : FVec Ideal S2x5 .f32)
    (x3 : FVec Ideal S5 .f32) :
    val_main_v5 (F := Ideal) x0 x1 x2 x3 = hiddenR (N := 10000) (D := 2) (E := 5) x1 x0 x2 x3 := by
  funext i
  obtain ⟨p, q, rfl⟩ : ∃ (p : Fin 10000) (q : Fin 5), i = ix2 p q := ⟨i 0, i 1, eq_ix2 i⟩
  -- the entry: maximum, of a sum of (outer product entry) and (bias entry), with the constant
  rw [val_main_v5_apply, val_main_v4_apply, val_main_call0_v0_apply, val_main_call0_cst_apply, val_main_v3_apply,
    val_main_v2_apply, val_main_v1_apply, bidx1]
  -- each term of the outer sum is A (p, k) times the inner product's entry (k, q), itself a sum of two terms
  rw [Finset.sum_congr rfl fun k _ => by rw [lidx1, ridx1, val_main_v0_apply,
    Finset.sum_congr rfl fun j _ => by rw [lidx0, ridx0]]]
  -- the constant word is zero; maximum and sum are the extended reals' own
  have hz : (FloatOps.ofBits .f32 0x00000000#32 : Ideal .f32) = 0 := Ideal.ofBits_zero_f32
  rw [hz, Ideal.maximumf_def, Ideal.addf_def]
  rfl

/-! ### Second layer: where each operand is read

  The same pattern with H (10000 × 5) for the features and W4 (5 × 2) for the weights. -/

theorem lidx7 (p : Fin 10000) (q : Fin 2) (k : Fin 10000) : lidx_main_v7 (ix2 p q) k = ix2 p k :=
  funext fun a => Fin.ext (by match a with | ⟨0, _⟩ => rfl | ⟨1, _⟩ => rfl)
theorem ridx7 (p : Fin 10000) (q : Fin 2) (k : Fin 10000) : ridx_main_v7 (ix2 p q) k = ix2 k q :=
  funext fun a => Fin.ext (by match a with | ⟨0, _⟩ => rfl | ⟨1, _⟩ => rfl)
theorem lidx6 (p : Fin 10000) (q : Fin 2) (k : Fin 5) : lidx_main_v6 (ix2 p q) k = ix2 p k :=
  funext fun a => Fin.ext (by match a with | ⟨0, _⟩ => rfl | ⟨1, _⟩ => rfl)
theorem ridx6 (p : Fin 10000) (q : Fin 2) (k : Fin 5) : ridx_main_v6 (ix2 p q) k = ix2 k q :=
  funext fun a => Fin.ext (by match a with | ⟨0, _⟩ => rfl | ⟨1, _⟩ => rfl)
theorem bidx4 (p : Fin 10000) (q : Fin 2) : idx_main_v8 (idx_main_v9 (ix2 p q)) = ix1 q :=
  funext fun a => Fin.ext (by match a with | ⟨0, _⟩ => rfl)

/-- THE REFERENCE'S RESULT is the mix-first output: entry (p, q) is `1 / (1 + exp (-z))` at
    `z = (∑ j, A (p, j) · ∑ k, H (j, k) · W4 (k, q)) + b4 q`, which is the logistic function of `z`. -/
theorem result_eq (x0 : FVec Ideal S10000x2 .f32) (x1 : FVec Ideal S10000x10000 .f32) (x2 : FVec Ideal S2x5 .f32)
    (x3 : FVec Ideal S5 .f32) (x4 : FVec Ideal S5x2 .f32) (x5 : FVec Ideal S2 .f32) :
    val_main_v16 (F := Ideal) x0 x1 x2 x3 x4 x5 = outputR (N := 10000) (D := 2) (E := 5) (E' := 2) x1 x0 x2 x3 x4 x5 := by
  funext i
  obtain ⟨p, q, rfl⟩ : ∃ (p : Fin 10000) (q : Fin 2), i = ix2 p q := ⟨i 0, i 1, eq_ix2 i⟩
  -- the entry: one, divided by one plus the exponential of minus (outer product entry plus bias entry)
  rw [val_main_v16_apply, val_main_v15_apply, val_main_cst_0_apply, val_main_v14_apply, val_main_v13_apply,
    val_main_cst_apply, val_main_v12_apply, val_main_v11_apply, val_main_v10_apply, val_main_v9_apply,
    val_main_v8_apply, val_main_v7_apply, bidx4]
  -- each term of the outer sum is A (p, k) times the entry (k, q) of H · W4; the hidden matrix enters as H
  rw [Finset.sum_congr rfl fun k _ => by rw [lidx7, ridx7, val_main_v6_apply,
    Finset.sum_congr rfl fun j _ => by rw [lidx6, ridx6, hidden_eq]]]
  -- both constant words are one; what remains is the logistic function's defining expression
  have h1 : (FloatOps.ofBits .f32 0x3F800000#32 : Ideal .f32) = 1 := one_word
  rw [h1]
  rfl

end Cert.ReferenceIdeal.RefValue

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibPlainMatmul.lean ====
/-
  A matrix unit's product of two f32 operands accumulated into zeros, read at the ideal values: entry `(r, c)` is the
  textbook sum over the contracted index, `∑ k, x (r, k) · w (k, c)`, for any sizes. (The companion of the host's
  `dot_general` read the same way; with it a row tile's product is row by row the whole product.)
-/
import proofs.«154681_g6055903887559_cont_9to1_m_18_2_alg».proof.Proof.LibAffineRows

noncomputable section

namespace Cert.Lib

open Idealize.ShloMosaic Idealize.ShloMosaic.ValueIdx

variable {R K M : ℕ}

/-- The product of an `[R, K]` by a `[K, M]` matrix into a zero accumulator, at `(r, c)`. -/
theorem matmul_plain_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    matmul d none x w (constant ⟨2, ![R, M]⟩ .f32 0x00000000#32) (ix2 r c) = ∑ k : Fin K, x (ix2 r k) * w (ix2 k c) := by
  simp only [matmul]
  rw [Ideal.matmul_constant_zero_apply]
  exact h.sum_eq (fun i => x i) (fun i => w i) r c

end Cert.Lib

end
-- ==== Proof.Layer1.lean ====
/-
  The first layer's region, read as a value: the hidden array it leaves.

  At grid point `t` the body holds rows `200 t … 200 t + 199` of the adjacency `A` and the whole of the features `X`, the
  weights `W` and the bias row `B`; it forms `(A_blk · X) · W`, adds the bias row to every row, and rectifies. Entry
  `(p, q)` of what it stores is therefore
      max ((∑ k, (∑ j, A (200 t + p, j) · X (j, k)) · W (k, q)) + B (0, q)) 0,
  entry `(200 t + p, q)` of the rectified gather-first layer of the whole arrays. The 50 blocks of rows tile the hidden
  array, row `r` lying in the block of point `r / 200`, so after the region the hidden array is that layer everywhere.
-/
import proofs.«154681_g6055903887559_cont_9to1_m_18_2_alg».proof.Defs
import proofs.«154681_g6055903887559_cont_9to1_m_18_2_alg».proof.Proof.Gen.KernelIdeal.Frame
import proofs.«154681_g6055903887559_cont_9to1_m_18_2_alg».proof.Proof.GcnSpec
import proofs.«154681_g6055903887559_cont_9to1_m_18_2_alg».proof.Proof.LibPlainMatmul
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Gcn Cert.Lib

/-- The gathering product `A_blk · X` is a plain matrix product: one contracted index, rows by columns. -/
theorem plain_gather : PlainDot dot_S200x10000_S10000x2_S200x2_1_0_0_1_n_n where
  rank := rfl
  size := rfl
  l0 := fun i q => by
    unfold DotDims.lhsIdx
    rw [dif_neg (show ¬(0 : Fin S200x10000.rank) ∈ dot_S200x10000_S10000x2_S200x2_1_0_0_1_n_n.lhsBatch by decide), dif_pos (show (0 : Fin S200x10000.rank) ∈ dot_S200x10000_S10000x2_S200x2_1_0_0_1_n_n.lhsNonContracting by decide)]
    rfl
  l1 := fun i q => dot_S200x10000_S10000x2_S200x2_1_0_0_1_n_n.lhsIdx_val_of_single rfl i q
  r0 := fun i q => dot_S200x10000_S10000x2_S200x2_1_0_0_1_n_n.rhsIdx_val_of_single rfl i q
  r1 := fun i q => by
    unfold DotDims.rhsIdx
    rw [dif_neg (show ¬(1 : Fin S10000x2.rank) ∈ dot_S200x10000_S10000x2_S200x2_1_0_0_1_n_n.rhsBatch by decide), dif_pos (show (1 : Fin S10000x2.rank) ∈ dot_S200x10000_S10000x2_S200x2_1_0_0_1_n_n.rhsNonContracting by decide)]
    rfl

/-- So is the mixing product `(A_blk · X) · W`. -/
theorem plain_mix : PlainDot dot_S200x2_S2x5_S200x5_1_0_0_1_n_n where
  rank := rfl
  size := rfl
  l0 := fun i q => by
    unfold DotDims.lhsIdx
    rw [dif_neg (show ¬(0 : Fin S200x2.rank) ∈ dot_S200x2_S2x5_S200x5_1_0_0_1_n_n.lhsBatch by decide), dif_pos (show (0 : Fin S200x2.rank) ∈ dot_S200x2_S2x5_S200x5_1_0_0_1_n_n.lhsNonContracting by decide)]
    rfl
  l1 := fun i q => dot_S200x2_S2x5_S200x5_1_0_0_1_n_n.lhsIdx_val_of_single rfl i q
  r0 := fun i q => dot_S200x2_S2x5_S200x5_1_0_0_1_n_n.rhsIdx_val_of_single rfl i q
  r1 := fun i q => by
    unfold DotDims.rhsIdx
    rw [dif_neg (show ¬(1 : Fin S2x5.rank) ∈ dot_S200x2_S2x5_S200x5_1_0_0_1_n_n.rhsBatch by decide), dif_pos (show (1 : Fin S2x5.rank) ∈ dot_S200x2_S2x5_S200x5_1_0_0_1_n_n.rhsNonContracting by decide)]
    rfl

/-- The body's value at `(p, q)` of a tile: the tile's rows gathered through the features, mixed by the weights, plus
    the bias row, rectified. -/
theorem pay_apply (x0 : FVec Ideal S200x10000 .f32) (x1 : FVec Ideal S10000x2 .f32) (x2 : FVec Ideal S2x5 .f32)
    (x3 : FVec Ideal S1x5 .f32) (p : Fin 200) (q : Fin 5) :
    k0_pay1 (F := Ideal) x0 x1 x2 x3 (ix2 p q)
      = max ((∑ k : Fin 2, (∑ j : Fin 10000, x0 (ix2 p j) * x1 (ix2 j k)) * x2 (ix2 k q)) + x3 (ix2 (0 : Fin 1) q)) 0 := by
  unfold k0_pay1
  rw [maximumf_apply, addf_apply, matmul_plain_apply plain_mix, broadcastTo_1b_ab_apply, shapeCast_self, broadcast_apply]
  rw [Ideal.ofBits_def, Ideal.ofBits_zero_f32]
  refine congrArg (fun z => max (z + x3 (ix2 (0 : Fin 1) q)) 0) (Finset.sum_congr rfl fun k _ => ?_)
  rw [matmul_plain_apply plain_gather]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's block and the output's block move together down the rows, every
    other block is the whole of its array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- ONE TILE: on a tile whose adjacency rows are rows `i 0` of the whole adjacency and whose other operands are the
    whole arrays, the body's value at `y` is the hidden layer at `i`. -/
theorem tile (A : Mat 10000 10000) (X : Mat 10000 2) (W : Mat 2 5) (B : Mat 1 5)
    (x0 : FVec Ideal S200x10000 .f32) (x1 : FVec Ideal S10000x2 .f32) (x2 : FVec Ideal S2x5 .f32) (x3 : FVec Ideal S1x5 .f32)
    (y : S200x5.Idx) (i : S10000x5.Idx)
    (h0 : ∀ j : Fin 10000, x0 (ix2 (y 0) j) = A (ix2 (i 0) j)) (h1 : ∀ j k, x1 (ix2 j k) = X (ix2 j k))
    (h2 : ∀ k l, x2 (ix2 k l) = W (ix2 k l)) (h3 : ∀ l, x3 (ix2 (0 : Fin 1) l) = B (ix2 (0 : Fin 1) l))
    (hq : y 1 = i 1) :
    k0_pay1 (F := Ideal) x0 x1 x2 x3 y = hiddenK A X W B i := by
  obtain ⟨p, q, rfl⟩ : ∃ (p : Fin 200) (q : Fin 5), y = ix2 p q := ⟨y 0, y 1, eq_ix2 y⟩
  obtain ⟨r, l, rfl⟩ : ∃ (r : Fin 10000) (l : Fin 5), i = ix2 r l := ⟨i 0, i 1, eq_ix2 i⟩
  have h0' : ∀ j : Fin 10000, x0 (ix2 p j) = A (ix2 r j) := h0
  obtain rfl : q = l := hq
  rw [pay_apply]
  show _ = max (gatherMix A X W B r q) 0
  unfold gatherMix
  rw [h3]
  refine congrArg (fun z => max (z + B (ix2 (0 : Fin 1) q)) 0) (Finset.sum_congr rfl fun k _ => ?_)
  rw [h2]
  exact congrArg (· * W (ix2 k q)) (Finset.sum_congr rfl fun j _ => by rw [h0', h1])

/-- WHAT POINT `t` WRITES BACK is block `t` of the hidden layer of the arrays as the region finds them. -/
theorem flushed_eq (c : Dev nD) (t : Fin cfg0.N) :
    (dat0 V c).flushed 4 t = ((cfg0.win 4).blk t).view.read (Elt Ideal)
      (hiddenK (N := 10000) (D := 2) (E := 5) (V c main_arg1) (V c main_arg0) (V c main_arg2) (V c main_v0)) := by
  show (cfg0.win 4).cut (grid0.coords t) ((dat0 V c).after 4 t) = _
  rw [after0_4]
  unfold out0_4
  rw [View.canon_unit_zero hz]
  simp only [View.ld_unit_zero (S := S200x10000) hz, View.ld_unit_zero (S := S10000x2) hz, View.ld_unit_zero (S := S2x5) hz, View.ld_unit_zero (S := S1x5) hz]
  obtain ⟨e00, e01, e10, e11, e20, e21, e30, e31, e40, e41⟩ := idx_facts t
  funext y
  show k0_pay1 (F := Ideal) (iblk0 V c 0 t) (iblk0 V c 1 t) (iblk0 V c 2 t) (iblk0 V c 3 t) y
    = hiddenK (N := 10000) (D := 2) (E := 5) (V c main_arg1) (V c main_arg0) (V c main_arg2) (V c main_v0) (((cfg0.win 4).blk t).view.emb y)
  refine tile (V c main_arg1) (V c main_arg0) (V c main_arg2) (V c main_v0) (iblk0 V c 0 t) (iblk0 V c 1 t) (iblk0 V c 2 t) (iblk0 V c 3 t) y (((cfg0.win 4).blk t).view.emb y) (fun j => ?_) (fun j k => ?_) (fun k l => ?_) (fun l => ?_) ?_
  · show V c main_arg1 (((cfg0.win 0).blk t).view.emb (ix2 (y 0) j)) = _
    refine congrArg (V c main_arg1) (funext fun a => Fin.ext ?_)
    match a with
    | ⟨0, _⟩ => show win0_0.index t (0 : Fin 2) * 200 + 1 * (y 0).val = win0_4.index t (0 : Fin 2) * 200 + 1 * (y 0).val; omega
    | ⟨1, _⟩ => show win0_0.index t (1 : Fin 2) * 10000 + 1 * j.val = j.val; omega
  · show V c main_arg0 (((cfg0.win 1).blk t).view.emb (ix2 j k)) = _
    refine congrArg (V c main_arg0) (funext fun a => Fin.ext ?_)
    match a with
    | ⟨0, _⟩ => show win0_1.index t (0 : Fin 2) * 10000 + 1 * j.val = j.val; omega
    | ⟨1, _⟩ => show win0_1.index t (1 : Fin 2) * 2 + 1 * k.val = k.val; omega
  · show V c main_arg2 (((cfg0.win 2).blk t).view.emb (ix2 k l)) = _
    refine congrArg (V c main_arg2) (funext fun a => Fin.ext ?_)
    match a with
    | ⟨0, _⟩ => show win0_2.index t (0 : Fin 2) * 2 + 1 * k.val = k.val; omega
    | ⟨1, _⟩ => show win0_2.index t (1 : Fin 2) * 5 + 1 * l.val = l.val; omega
  · show V c main_v0 (((cfg0.win 3).blk t).view.emb (ix2 (0 : Fin 1) l)) = _
    refine congrArg (V c main_v0) (funext fun a => Fin.ext ?_)
    match a with
    | ⟨0, _⟩ => show win0_3.index t (0 : Fin 2) * 1 + 1 * 0 = 0; omega
    | ⟨1, _⟩ => show win0_3.index t (1 : Fin 2) * 5 + 1 * l.val = l.val; omega
  · refine Fin.ext ?_
    show (y 1).val = win0_4.index t (1 : Fin 2) * 5 + 1 * (y 1).val
    omega

/-- An index of the hidden array is in point `t`'s block iff each coordinate is in the block's range on its axis. -/
theorem mem_blk (t : Fin cfg0.N) (i : S10000x5.Idx) :
    i ∈ ((cfg0.win 4).blk t).view.set ↔ ∀ a : Fin 2, win0_4.index t a * S200x5.size a ≤ (i a).val ∧ (i a).val < win0_4.index t a * S200x5.size a + S200x5.size a := by
  show i ∈ ((View.whole main_v1).slice (win0_4.rect t)).set ↔ _
  rw [View.set_slice_whole, Rect.mem_set_unit]
  exact Iff.rfl

/-- Every block of rows is some point's. -/
theorem idx_onto : ∀ q0 : Fin 50, ∃ t : Fin cfg0.N, t.val = q0.val :=
  (by decide +kernel : ∀ q0 : Fin 50, ∃ t : Fin grid0.N, t.val = q0.val)

/-- THE HIDDEN ARRAY after the region: the rectified first layer of the arrays as the region finds them; row `r` is
    written at point `r / 200`. -/
theorem final (c : Dev nD) : (dat0 V c).arrAt 4 cfg0.N
    = hiddenK (N := 10000) (D := 2) (E := 5) (V c main_arg1) (V c main_arg0) (V c main_arg2) (V c main_v0) :=
  (dat0 V c).arrAt_eq_of_cover 4 _ (fun t _ => flushed_eq V c t) fun i => by
    have hi0 : (i 0).val < 10000 := (i 0).isLt
    have hi1 : (i 1).val < 5 := (i 1).isLt
    obtain ⟨t, ht⟩ := idx_onto ⟨(i 0).val / 200, by omega⟩
    have ht' : t.val = (i 0).val / 200 := ht
    obtain ⟨-, -, -, -, -, -, -, -, e40, e41⟩ := idx_facts t
    refine ⟨t, flush0_4 t, ?_⟩
    rw [mem_blk]
    intro a
    match a with
    | ⟨0, _⟩ => show win0_4.index t (0 : Fin 2) * 200 ≤ (i 0).val ∧ (i 0).val < win0_4.index t (0 : Fin 2) * 200 + 200; omega
    | ⟨1, _⟩ => show win0_4.index t (1 : Fin 2) * 5 ≤ (i 1).val ∧ (i 1).val < win0_4.index t (1 : Fin 2) * 5 + 5; omega

end Cert.KernelIdeal.Layer1

end
-- ==== Proof.Layer2.lean ====
/-
  The second layer's region, read as a value: the result array it leaves.

  At grid point `t` the body holds rows `200 t … 200 t + 199` of the adjacency `A` and the whole of the hidden features
  `H`, the weights `W` and the bias row `B`; it forms `(A_blk · H) · W`, adds the bias row to every row, and applies the
  logistic function. Entry `(p, q)` of what it stores is therefore
      logistic ((∑ k, (∑ j, A (200 t + p, j) · H (j, k)) · W (k, q)) + B (0, q)),
  entry `(200 t + p, q)` of the closing gather-first layer of the whole arrays. The 50 blocks of rows tile the result
  array, row `r` lying in the block of point `r / 200`, so after the region the result array is that layer everywhere.
-/
import proofs.«154681_g6055903887559_cont_9to1_m_18_2_alg».proof.Defs
import proofs.«154681_g6055903887559_cont_9to1_m_18_2_alg».proof.Proof.Gen.KernelIdeal.Frame
import proofs.«154681_g6055903887559_cont_9to1_m_18_2_alg».proof.Proof.GcnSpec
import proofs.«154681_g6055903887559_cont_9to1_m_18_2_alg».proof.Proof.LibPlainMatmul
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gcn

/-- The closing layer over given hidden features `H`, gathering first: the logistic function of `(A · H) · W + B`. -/
def closingK {N E E' : ℕ} (A : Mat N N) (H : Mat N E) (W : Mat E E') (B : Mat 1 E') : Mat N E' :=
  fun i => Ideal.logistic (gatherMix A H W B (i 0) (i 1))

/-- The network's output is the closing layer over the hidden features. -/
theorem outputK_eq_closingK {N D E E' : ℕ} (A : Mat N N) (X : Mat N D) (W1 : Mat D E) (B1 : Mat 1 E) (W4 : Mat E E')
    (B4 : Mat 1 E') : outputK A X W1 B1 W4 B4 = closingK A (hiddenK A X W1 B1) W4 B4 := rfl

end Cert.Gcn

namespace Cert.KernelIdeal.Layer2

open Cert.KernelIdeal Cert.KernelIdeal.Gen Cert.Gcn Cert.Lib

/-- The gathering product `A_blk · H` is a plain matrix product: one contracted index, rows by columns. -/
theorem plain_gather : PlainDot dot_S200x10000_S10000x5_S200x5_1_0_0_1_n_n where
  rank := rfl
  size := rfl
  l0 := fun i q => by
    unfold DotDims.lhsIdx
    rw [dif_neg (show ¬(0 : Fin S200x10000.rank) ∈ dot_S200x10000_S10000x5_S200x5_1_0_0_1_n_n.lhsBatch by decide), dif_pos (show (0 : Fin S200x10000.rank) ∈ dot_S200x10000_S10000x5_S200x5_1_0_0_1_n_n.lhsNonContracting by decide)]
    rfl
  l1 := fun i q => dot_S200x10000_S10000x5_S200x5_1_0_0_1_n_n.lhsIdx_val_of_single rfl i q
  r0 := fun i q => dot_S200x10000_S10000x5_S200x5_1_0_0_1_n_n.rhsIdx_val_of_single rfl i q
  r1 := fun i q => by
    unfold DotDims.rhsIdx
    rw [dif_neg (show ¬(1 : Fin S10000x5.rank) ∈ dot_S200x10000_S10000x5_S200x5_1_0_0_1_n_n.rhsBatch by decide), dif_pos (show (1 : Fin S10000x5.rank) ∈ dot_S200x10000_S10000x5_S200x5_1_0_0_1_n_n.rhsNonContracting by decide)]
    rfl

/-- So is the mixing product `(A_blk · H) · W`. -/
theorem plain_mix : PlainDot dot_S200x5_S5x2_S200x2_1_0_0_1_n_n where
  rank := rfl
  size := rfl
  l0 := fun i q => by
    unfold DotDims.lhsIdx
    rw [dif_neg (show ¬(0 : Fin S200x5.rank) ∈ dot_S200x5_S5x2_S200x2_1_0_0_1_n_n.lhsBatch by decide), dif_pos (show (0 : Fin S200x5.rank) ∈ dot_S200x5_S5x2_S200x2_1_0_0_1_n_n.lhsNonContracting by decide)]
    rfl
  l1 := fun i q => dot_S200x5_S5x2_S200x2_1_0_0_1_n_n.lhsIdx_val_of_single rfl i q
  r0 := fun i q => dot_S200x5_S5x2_S200x2_1_0_0_1_n_n.rhsIdx_val_of_single rfl i q
  r1 := fun i q => by
    unfold DotDims.rhsIdx
    rw [dif_neg (show ¬(1 : Fin S5x2.rank) ∈ dot_S200x5_S5x2_S200x2_1_0_0_1_n_n.rhsBatch by decide), dif_pos (show (1 : Fin S5x2.rank) ∈ dot_S200x5_S5x2_S200x2_1_0_0_1_n_n.rhsNonContracting by decide)]
    rfl

/-- The kernel's logistic operation, lane by lane, is the logistic function of an extended real. -/
theorem logistic_apply {s : Shape} (v : FVec Ideal s .f32) (i : s.Idx) : logistic v i = Ideal.logistic (v i) := rfl

/-- The body's value at `(p, q)` of a tile: the logistic function of the tile's rows gathered through the hidden
    features, mixed by the weights, plus the bias row. -/
theorem pay_apply (x0 : FVec Ideal S200x10000 .f32) (x1 : FVec Ideal S10000x5 .f32) (x2 : FVec Ideal S5x2 .f32)
    (x3 : FVec Ideal S1x2 .f32) (p : Fin 200) (q : Fin 2) :
    k1_pay1 (F := Ideal) x0 x1 x2 x3 (ix2 p q)
      = Ideal.logistic ((∑ k : Fin 5, (∑ j : Fin 10000, x0 (ix2 p j) * x1 (ix2 j k)) * x2 (ix2 k q)) + x3 (ix2 (0 : Fin 1) q)) := by
  unfold k1_pay1
  rw [logistic_apply, addf_apply, matmul_plain_apply plain_mix, broadcastTo_1b_ab_apply, shapeCast_self, shapeCast_self]
  refine congrArg (fun z => Ideal.logistic (z + x3 (ix2 (0 : Fin 1) q))) (Finset.sum_congr rfl fun k _ => ?_)
  rw [matmul_plain_apply plain_gather]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's block and the output's block move together down the rows, every
    other block is the whole of its array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- ONE TILE: on a tile whose adjacency rows are rows `i 0` of the whole adjacency and whose other operands are the
    whole arrays, the body's value at `y` is the closing layer at `i`. -/
theorem tile (A : Mat 10000 10000) (H : Mat 10000 5) (W : Mat 5 2) (B : Mat 1 2)
    (x0 : FVec Ideal S200x10000 .f32) (x1 : FVec Ideal S10000x5 .f32) (x2 : FVec Ideal S5x2 .f32) (x3 : FVec Ideal S1x2 .f32)
    (y : S200x2.Idx) (i : S10000x2.Idx)
    (h0 : ∀ j : Fin 10000, x0 (ix2 (y 0) j) = A (ix2 (i 0) j)) (h1 : ∀ j k, x1 (ix2 j k) = H (ix2 j k))
    (h2 : ∀ k l, x2 (ix2 k l) = W (ix2 k l)) (h3 : ∀ l, x3 (ix2 (0 : Fin 1) l) = B (ix2 (0 : Fin 1) l))
    (hq : y 1 = i 1) :
    k1_pay1 (F := Ideal) x0 x1 x2 x3 y = closingK A H W B i := by
  obtain ⟨p, q, rfl⟩ : ∃ (p : Fin 200) (q : Fin 2), y = ix2 p q := ⟨y 0, y 1, eq_ix2 y⟩
  obtain ⟨r, l, rfl⟩ : ∃ (r : Fin 10000) (l : Fin 2), i = ix2 r l := ⟨i 0, i 1, eq_ix2 i⟩
  have h0' : ∀ j : Fin 10000, x0 (ix2 p j) = A (ix2 r j) := h0
  obtain rfl : q = l := hq
  rw [pay_apply]
  show _ = Ideal.logistic (gatherMix A H W B r q)
  unfold gatherMix
  rw [h3]
  refine congrArg (fun z => Ideal.logistic (z + B (ix2 (0 : Fin 1) q))) (Finset.sum_congr rfl fun k _ => ?_)
  rw [h2]
  exact congrArg (· * W (ix2 k q)) (Finset.sum_congr rfl fun j _ => by rw [h0', h1])

/-- WHAT POINT `t` WRITES BACK is block `t` of the closing layer of the arrays as the region finds them. -/
theorem flushed_eq (c : Dev nD) (t : Fin cfg1.N) :
    (dat1 V c).flushed 4 t = ((cfg1.win 4).blk t).view.read (Elt Ideal)
      (closingK (N := 10000) (E := 5) (E' := 2) (V c main_arg1) (V c main_v1) (V c main_arg4) (V c main_v2)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x5) hz, View.ld_unit_zero (S := S5x2) hz, View.ld_unit_zero (S := S1x2) hz]
  obtain ⟨e00, e01, e10, e11, e20, e21, e30, e31, e40, e41⟩ := idx_facts t
  funext y
  show k1_pay1 (F := Ideal) (iblk1 V c 0 t) (iblk1 V c 1 t) (iblk1 V c 2 t) (iblk1 V c 3 t) y
    = closingK (N := 10000) (E := 5) (E' := 2) (V c main_arg1) (V c main_v1) (V c main_arg4) (V c main_v2) (((cfg1.win 4).blk t).view.emb y)
  refine tile (V c main_arg1) (V c main_v1) (V c main_arg4) (V c main_v2) (iblk1 V c 0 t) (iblk1 V c 1 t) (iblk1 V c 2 t) (iblk1 V c 3 t) y (((cfg1.win 4).blk t).view.emb y) (fun j => ?_) (fun j k => ?_) (fun k l => ?_) (fun l => ?_) ?_
  · show V c main_arg1 (((cfg1.win 0).blk t).view.emb (ix2 (y 0) j)) = _
    refine congrArg (V c main_arg1) (funext fun a => Fin.ext ?_)
    match a with
    | ⟨0, _⟩ => show win1_0.index t (0 : Fin 2) * 200 + 1 * (y 0).val = win1_4.index t (0 : Fin 2) * 200 + 1 * (y 0).val; omega
    | ⟨1, _⟩ => show win1_0.index t (1 : Fin 2) * 10000 + 1 * j.val = j.val; omega
  · show V c main_v1 (((cfg1.win 1).blk t).view.emb (ix2 j k)) = _
    refine congrArg (V c main_v1) (funext fun a => Fin.ext ?_)
    match a with
    | ⟨0, _⟩ => show win1_1.index t (0 : Fin 2) * 10000 + 1 * j.val = j.val; omega
    | ⟨1, _⟩ => show win1_1.index t (1 : Fin 2) * 5 + 1 * k.val = k.val; omega
  · show V c main_arg4 (((cfg1.win 2).blk t).view.emb (ix2 k l)) = _
    refine congrArg (V c main_arg4) (funext fun a => Fin.ext ?_)
    match a with
    | ⟨0, _⟩ => show win1_2.index t (0 : Fin 2) * 5 + 1 * k.val = k.val; omega
    | ⟨1, _⟩ => show win1_2.index t (1 : Fin 2) * 2 + 1 * l.val = l.val; omega
  · show V c main_v2 (((cfg1.win 3).blk t).view.emb (ix2 (0 : Fin 1) l)) = _
    refine congrArg (V c main_v2) (funext fun a => Fin.ext ?_)
    match a with
    | ⟨0, _⟩ => show win1_3.index t (0 : Fin 2) * 1 + 1 * 0 = 0; omega
    | ⟨1, _⟩ => show win1_3.index t (1 : Fin 2) * 2 + 1 * l.val = l.val; omega
  · refine Fin.ext ?_
    show (y 1).val = win1_4.index t (1 : Fin 2) * 2 + 1 * (y 1).val
    omega

/-- An index of the result array is in point `t`'s block iff each coordinate is in the block's range on its axis. -/
theorem mem_blk (t : Fin cfg1.N) (i : S10000x2.Idx) :
    i ∈ ((cfg1.win 4).blk t).view.set ↔ ∀ a : Fin 2, win1_4.index t a * S200x2.size a ≤ (i a).val ∧ (i a).val < win1_4.index t a * S200x2.size a + S200x2.size a := by
  show i ∈ ((View.whole main_v3).slice (win1_4.rect t)).set ↔ _
  rw [View.set_slice_whole, Rect.mem_set_unit]
  exact Iff.rfl

/-- Every block of rows is some point's. -/
theorem idx_onto : ∀ q0 : Fin 50, ∃ t : Fin cfg1.N, t.val = q0.val :=
  (by decide +kernel : ∀ q0 : Fin 50, ∃ t : Fin grid1.N, t.val = q0.val)

/-- THE RESULT ARRAY after the region: the closing layer of the arrays as the region finds them; row `r` is written at
    point `r / 200`. -/
theorem final (c : Dev nD) : (dat1 V c).arrAt 4 cfg1.N
    = closingK (N := 10000) (E := 5) (E' := 2) (V c main_arg1) (V c main_v1) (V c main_arg4) (V c main_v2) :=
  (dat1 V c).arrAt_eq_of_cover 4 _ (fun t _ => flushed_eq V c t) fun i => by
    have hi0 : (i 0).val < 10000 := (i 0).isLt
    have hi1 : (i 1).val < 2 := (i 1).isLt
    obtain ⟨t, ht⟩ := idx_onto ⟨(i 0).val / 200, by omega⟩
    have ht' : t.val = (i 0).val / 200 := ht
    obtain ⟨-, -, -, -, -, -, -, -, e40, e41⟩ := idx_facts t
    refine ⟨t, flush1_4 t, ?_⟩
    rw [mem_blk]
    intro a
    match a with
    | ⟨0, _⟩ => show win1_4.index t (0 : Fin 2) * 200 ≤ (i 0).val ∧ (i 0).val < win1_4.index t (0 : Fin 2) * 200 + 200; omega
    | ⟨1, _⟩ => show win1_4.index t (1 : Fin 2) * 2 ≤ (i 1).val ∧ (i 1).val < win1_4.index t (1 : Fin 2) * 2 + 2; omega

end Cert.KernelIdeal.Layer2

end
-- ==== Proof.KernelValue.lean ====
/-
  The idealized kernel's result as one function of its arguments.

  The program is: reshape the first bias to a row; the first layer's region; reshape the second bias to a row; the second
  layer's region. Reading the buffers boundary by boundary: the first region is entered with the arguments as launched
  and the bias row holding the bias vector, and leaves the hidden array at the rectified first layer; the host stretch
  between the regions writes only the second bias row; so the second region is entered with the adjacency and the second
  weights as launched, the hidden array as the first region left it, and leaves the result at the closing layer over it.
  Together: the result is the two-layer network, gathering first in both layers.
-/
import proofs.«154681_g6055903887559_cont_9to1_m_18_2_alg».proof.Defs
import proofs.«154681_g6055903887559_cont_9to1_m_18_2_alg».proof.Proof.KernelRun
import proofs.«154681_g6055903887559_cont_9to1_m_18_2_alg».proof.Proof.Layer1
import proofs.«154681_g6055903887559_cont_9to1_m_18_2_alg».proof.Proof.Layer2
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Gcn

variable (m : (ℓ : Loc nD τ sig) → Buf (Elt Ideal) ℓ) (ρ : Dev nD → PrngReg)

/-! ## What the first region is entered with -/

theorem entry1_adj (c : Dev nD) : V1 m ρ c main_arg1 = m ((c : Thread nD τ).loc main_arg1) := by
  show StableHlo.after hostOps0 (W0 m ρ c) (Proc.devRef .tc main_arg1) = _
  after_results <;> rfl

theorem entry1_x (c : Dev nD) : V1 m ρ c main_arg0 = m ((c : Thread nD τ).loc main_arg0) := by
  show StableHlo.after hostOps0 (W0 m ρ c) (Proc.devRef .tc main_arg0) = _
  after_results <;> rfl

theorem entry1_w (c : Dev nD) : V1 m ρ c main_arg2 = m ((c : Thread nD τ).loc main_arg2) := by
  show StableHlo.after hostOps0 (W0 m ρ c) (Proc.devRef .tc main_arg2) = _
  after_results <;> rfl

/-- The first bias row holds the first bias vector. -/
theorem entry1_bias (c : Dev nD) (l : Fin 5) :
    (V1 m ρ c main_v0 : S1x5.Idx → EReal) (ix2 (0 : Fin 1) l) = (m ((c : Thread nD τ).loc main_arg3) : S5.Idx → EReal) (ix1 l) := by
  have e : (V1 m ρ c main_v0 : S1x5.Idx → EReal)
      = shapeCast S1x5 (m ((c : Thread nD τ).loc main_arg3) : S5.Idx → EReal) shapeCasts_S5_S1x5 := by
    show StableHlo.after hostOps0 (W0 m ρ c) (Proc.devRef .tc main_v0) = _
    after_results <;> rfl
  rw [e]
  exact shapeCast_a_1a_apply _ _ 0 l

/-! ## What the second region is entered with -/

theorem between_adj (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (entry1_adj m ρ c)

theorem between_w4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results <;> rfl

theorem between_b4 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results <;> rfl

theorem entry2_adj (c : Dev nD) : V3 m ρ c main_arg1 = m ((c : Thread nD τ).loc main_arg1) := by
  refine Eq.trans ?_ (between_adj m ρ c)
  show StableHlo.after hostOps1 (W2 m ρ c) (Proc.devRef .tc main_arg1) = _
  after_results <;> rfl

theorem entry2_w (c : Dev nD) : V3 m ρ c main_arg4 = m ((c : Thread nD τ).loc main_arg4) := by
  refine Eq.trans ?_ (between_w4 m ρ c)
  show StableHlo.after hostOps1 (W2 m ρ c) (Proc.devRef .tc main_arg4) = _
  after_results <;> rfl

/-- The hidden array is as the first region left it. -/
theorem entry2_hidden (c : Dev nD) : V3 m ρ c main_v1 = (dat0 (V1 m ρ) c).arrAt 4 cfg0.N := by
  refine Eq.trans ?_ (W2_arr m ρ c 4)
  show StableHlo.after hostOps1 (W2 m ρ c) (Proc.devRef .tc main_v1) = _
  after_results <;> rfl

/-- The second bias row holds the second bias vector. -/
theorem entry2_bias (c : Dev nD) (l : Fin 2) :
    (V3 m ρ c main_v2 : S1x2.Idx → EReal) (ix2 (0 : Fin 1) l) = (m ((c : Thread nD τ).loc main_arg5) : S2.Idx → EReal) (ix1 l) := by
  have e : (V3 m ρ c main_v2 : S1x2.Idx → EReal)
      = shapeCast S1x2 (W2 m ρ c (Proc.devRef .tc main_arg5) : S2.Idx → EReal) shapeCasts_S2_S1x2 := by
    show StableHlo.after hostOps1 (W2 m ρ c) (Proc.devRef .tc main_v2) = _
    after_results <;> rfl
  rw [e, between_b4]
  exact shapeCast_a_1a_apply _ _ 0 l

/-! ## The result -/

/-- The result array at the last boundary: the two-layer network of the arguments, gathering first, over the two bias rows. -/
theorem result (c : Dev nD) : W4 m ρ c (Proc.devRef .tc main_v3)
    = outputK (N := 10000) (D := 2) (E := 5) (E' := 2) (m ((c : Thread nD τ).loc main_arg1)) (m ((c : Thread nD τ).loc main_arg0))
        (m ((c : Thread nD τ).loc main_arg2)) (V1 m ρ c main_v0) (m ((c : Thread nD τ).loc main_arg4)) (V3 m ρ c main_v2) := by
  rw [outputK_eq_closingK]
  refine (W4_arr m ρ c 4).trans ?_
  rw [Cert.KernelIdeal.Layer2.final (V3 m ρ) c, entry2_adj, entry2_w, entry2_hidden,
    Cert.KernelIdeal.Layer1.final (V1 m ρ) c, entry1_adj, entry1_x, entry1_w]

/-- The run, read: the result array at the network's output, the arguments unchanged. -/
theorem run : θ_run defs (onTc (τ := τ) (main (F := Ideal))) ⟨m, fun _ => 0, ρ⟩ (fun r => ∀ c : Dev nD,
      r.2.mem ((c.tc : Thread nD τ).loc main_v3)
        = outputK (N := 10000) (D := 2) (E := 5) (E' := 2) (m ((c : Thread nD τ).loc main_arg1)) (m ((c : Thread nD τ).loc main_arg0))
            (m ((c : Thread nD τ).loc main_arg2)) (V1 m ρ c main_v0) (m ((c : Thread nD τ).loc main_arg4)) (V3 m ρ c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.GenRun.run_named m ρ)

end Cert.KernelIdeal.Whole

end
-- ==== Proof.lean ====
/-
  Two graph-convolution layers over a dense adjacency: the row-tiled kernel against the whole-matrix reference, over the
  extended reals.

  The kernel runs two regions, one per layer. Each walks the adjacency `A` in blocks of 200 rows and, for a block, forms
  `(A_blk · V) · W + b` with the small feature matrix `V`, weights `W` and bias row `b` whole, then applies the layer's
  activation (a rectifier in the first layer, the logistic function in the second) and writes the block of rows back. So
  the first region leaves `H = max ((A · X) · W1 + b1) 0` and the second `O = logistic ((A · H) · W4 + b4)`, every row
  written exactly once (Proof/Layer1.lean, Proof/Layer2.lean, chained through the two reshapes of the biases in
  Proof/KernelValue.lean). The reference forms `max (A · (X · W1) + b1) 0` and `1 / (1 + exp (-(A · (H · W4) + b4)))` with
  whole products (Proof/RefValue.lean). The quotient is the logistic function by definition; the two groupings of the triple
  product agree entry by entry because the inputs are finite: the precondition makes every entry of every input a real
  number (Proof/Finite.lean), and over the reals both groupings are one double sum; the rectified hidden features are real
  again, so the same law serves the second layer (Proof/GcnSpec.lean). The three frames are the generated ones (the
  reference's its run with the result dropped); nothing was idealized by rewriting, so the preservation claim is trivial.
-/
import proofs.«154681_g6055903887559_cont_9to1_m_18_2_alg».proof.Defs
import proofs.«154681_g6055903887559_cont_9to1_m_18_2_alg».proof.Proof.Gen.Kernel
import proofs.«154681_g6055903887559_cont_9to1_m_18_2_alg».proof.Proof.Gen.Kernel.Skeleton
import proofs.«154681_g6055903887559_cont_9to1_m_18_2_alg».proof.Proof.Gen.Kernel.Launch
import proofs.«154681_g6055903887559_cont_9to1_m_18_2_alg».proof.Proof.Gen.Kernel.Points
import proofs.«154681_g6055903887559_cont_9to1_m_18_2_alg».proof.Proof.Gen.Kernel.Frame
import proofs.«154681_g6055903887559_cont_9to1_m_18_2_alg».proof.Proof.Gen.KernelIdeal
import proofs.«154681_g6055903887559_cont_9to1_m_18_2_alg».proof.Proof.Gen.KernelIdeal.Skeleton
import proofs.«154681_g6055903887559_cont_9to1_m_18_2_alg».proof.Proof.Gen.KernelIdeal.Launch
import proofs.«154681_g6055903887559_cont_9to1_m_18_2_alg».proof.Proof.Gen.KernelIdeal.Points
import proofs.«154681_g6055903887559_cont_9to1_m_18_2_alg».proof.Proof.Gen.KernelIdeal.Frame
import proofs.«154681_g6055903887559_cont_9to1_m_18_2_alg».proof.Proof.Gen.ReferenceIdeal
import proofs.«154681_g6055903887559_cont_9to1_m_18_2_alg».proof.Proof.Gen.ReferenceIdeal.Run
import proofs.«154681_g6055903887559_cont_9to1_m_18_2_alg».proof.Proof.Gen.ReferenceIdeal.Read
import proofs.«154681_g6055903887559_cont_9to1_m_18_2_alg».proof.Proof.Gen.Pre_finite_inputs
import proofs.«154681_g6055903887559_cont_9to1_m_18_2_alg».proof.Proof.GcnSpec
import proofs.«154681_g6055903887559_cont_9to1_m_18_2_alg».proof.Proof.Finite
import proofs.«154681_g6055903887559_cont_9to1_m_18_2_alg».proof.Proof.RefValue
import proofs.«154681_g6055903887559_cont_9to1_m_18_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network's output, mixing first, of the launch arguments: the kernel's gather-first value
    equals it because the precondition makes every input entry real; the reference's term is it entry by entry. -/
theorem algebraic : Cert.algebraic_KernelIdeal_ReferenceIdeal := by
  intro m ρ m' ρ' hpre hagree
  refine ⟨fun c => Cert.Gcn.outputR (N := 10000) (D := 2) (E := 5) (E' := 2)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Whole.run m ρ)
    obtain ⟨h0, h1, h2, h3, h4, -⟩ := Cert.Finite.inputs_real _ _ _ _ _ _ (hpre c)
    exact Cert.Gcn.outputK_eq_outputR _ _ _ _ _ _ _ _ h1 h0 h2 h3 h4
      (Cert.KernelIdeal.Whole.entry1_bias m ρ c) (Cert.KernelIdeal.Whole.entry2_bias m ρ c)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5⟩ := hagree c
    rw [a0, a1, a2, a3, a4, a5, Cert.ReferenceIdeal.Read.val_main_v16_eq]
    exact Cert.ReferenceIdeal.RefValue.result_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
